-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1024 : Shape := ⟨2, ![262144, 1024]⟩
abbrev S262144 : Shape := ⟨1, ![262144]⟩
abbrev S_ : Shape := ⟨0, ![]⟩

class Facts : Prop where
  bcast_S_S262144x1024 : S_.BroadcastsInDim S262144x1024 (![] : Fin 0 → Fin S262144x1024.rank)
  reducesTo_S262144x1024_S_d0_1 : S262144x1024.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x1024 .f32) (main_arg1 : IVec S262144 32) : IVec S_ 1 :=
  let main_v0 : FVec F S262144x1024 .f32 := Host.absf main_arg0
  let main_cst : FVec F S_ .f32 := constant S_ .f32 0x7F800000#32
  let main_v1 : FVec F S262144x1024 .f32 := broadcastInDim S262144x1024 ![] bcast_S_S262144x1024 main_cst
  let main_v2 : IVec S262144x1024 1 := cmpf .olt main_v0 main_v1
  let main_c : IVec S_ 1 := constantI S_ 1 1#1
  let main_v3 : IVec S_ 1 := (fun x v => Host.reduce IntOp.andi x v reducesTo_S262144x1024_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 1024#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x1024 : Shape := ⟨2, ![262144, 1024]⟩
abbrev S262144 : Shape := ⟨1, ![262144]⟩
abbrev S262144x1 : Shape := ⟨2, ![262144, 1]⟩
abbrev S1024x1024 : Shape := ⟨2, ![1024, 1024]⟩
abbrev S1024x1 : Shape := ⟨2, ![1024, 1]⟩
abbrev S1024 : Shape := ⟨1, ![1024]⟩
abbrev S1x1024 : Shape := ⟨2, ![1, 1024]⟩
abbrev S_ : Shape := ⟨0, ![]⟩

abbrev nBuf : Space → Nat
  | .hbm => 18
  | .vmem => 6
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S262144x1, .i32⟩
  | .hbm, ⟨3, _⟩ => ⟨S262144, .f32⟩
  | .hbm, ⟨4, _⟩ => ⟨S_, .f32⟩
  | .hbm, ⟨5, _⟩ => ⟨S1024, .f32⟩
  | .hbm, ⟨6, _⟩ => ⟨S262144x1, .i32⟩
  | .hbm, ⟨7, _⟩ => ⟨S1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024, .f32⟩
  | .local _ .vmem, ⟨5, _⟩ => ⟨S1024, .f32⟩
  | _, _ => ⟨S262144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S262144_S262144x1 : S262144.ShapeCasts S262144x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x1024_d1_w32 : S1x1024.Iotas .tc 32 [1]
  broadcasts_S1x1024_S1024x1024 : S1x1024.Broadcasts S1024x1024
  shapeCasts_S1024x1_S1024 : S1024x1.ShapeCasts S1024
  inb_S1024_S1024_0 : ∀ a, (![0] : Fin 1 → Nat) a + S1024.size a ≤ S1024.size a
  h_S1024 : 0 < S1024.numel
  bcast_S_S1024 : S_.BroadcastsInDim S1024 (![] : Fin 0 → Fin S1024.rank)
  bcast_S262144_S262144x1_0 : S262144.BroadcastsInDim S262144x1 (![0] : Fin 1 → Fin S262144x1.rank)
  reducesTo_S1024_S_d0 : S1024.ReducesTo [0] S_
  h_S_ : 0 < S_.numel
  reducesTo_S262144_S_d0 : S262144.ReducesTo [0] S_
  scatter_S1024_S262144x1_S262144_n_0_0_1_wf : ScatterDims.WF S1024 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S262144x1024.size a
  hwx0_0 : ∀ i : grid0.Coords, EltTy.bits .f32 = 32 ∨ (Rect.block (s := S262144x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S262144.size a
  hwx0_2 : ∀ i : grid0.Coords, EltTy.bits .f32 = 32 ∨ (Rect.block (s := S262144) S1024.size (cc0_transform_2 i) (hinb0_2 i)).WholeWords (EltTy.packing .f32)

variable [Facts₀]

def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x1024 : Shape := ⟨2, ![262144, 1024]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x1024, .f32⟩
  | .hbm, ⟨9, _⟩ => ⟨S262144x1024, .f32⟩
  | .hbm, ⟨10, _⟩ => ⟨S262144x1024, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x1, .f32⟩
  | .hbm, ⟨15, _⟩ => ⟨S262144x1024, .f32⟩
  | .hbm, ⟨16, _⟩ => ⟨S262144x1024, .f32⟩
  | .hbm, ⟨17, _⟩ => ⟨S262144x1, .i32⟩
  | .hbm, ⟨18, _⟩ => ⟨S_, .i32⟩
  | .hbm, ⟨19, _⟩ => ⟨S262144x1, .i32⟩
  | .hbm, ⟨20, _⟩ => ⟨S262144x1, .i1⟩
  | .hbm, ⟨21, _⟩ => ⟨S_, .i32⟩
  | .hbm, ⟨22, _⟩ => ⟨S262144x1, .i32⟩
  | .hbm, ⟨23, _⟩ => ⟨S262144x1, .i32⟩
  | .hbm, ⟨24, _⟩ => ⟨S262144x1, .i32⟩
  | .hbm, ⟨25, _⟩ => ⟨S262144x1x1, .i32⟩
  | .hbm, ⟨26, _⟩ => ⟨S1, .i32⟩
  | .hbm, ⟨27, _⟩ => ⟨S_, .i32⟩
  | .hbm, ⟨28, _⟩ => ⟨S262144x1x1, .i32⟩
  | .hbm, ⟨29, _⟩ => ⟨S262144x1x1, .i1⟩
  | .hbm, ⟨30, _⟩ => ⟨S1x1x1, .i32⟩
  | .hbm, ⟨31, _⟩ => ⟨S262144x1x1, .i32⟩
  | .hbm, ⟨32, _⟩ => ⟨S262144x1x1, .i1⟩
  | .hbm, ⟨33, _⟩ => ⟨S262144x1x1, .i1⟩
  | .hbm, ⟨34, _⟩ => ⟨S_, .i1⟩
  | .hbm, ⟨35, _⟩ => ⟨S262144x1, .i1⟩
  | .hbm, ⟨36, _⟩ => ⟨S262144x1, .f32⟩
  | .hbm, ⟨37, _⟩ => ⟨S_, .f32⟩
  | .hbm, ⟨38, _⟩ => ⟨S262144x1, .f32⟩
  | .hbm, ⟨39, _⟩ => ⟨S262144x1, .f32⟩
  | .hbm, ⟨40, _⟩ => ⟨S262144, .f32⟩
  | .hbm, ⟨41, _⟩ => ⟨S262144, .f32⟩
  | .hbm, ⟨42, _⟩ => ⟨S_, .f32⟩
  | .hbm, ⟨43, _⟩ => ⟨S1024, .f32⟩
  | .hbm, ⟨44, _⟩ => ⟨S262144x1, .i32⟩
  | .hbm, ⟨45, _⟩ => ⟨S1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S262144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst_0 : Ref sig .tc := ⟨.hbm, 46, rfl⟩
abbrev main_v8 : Ref sig .tc := ⟨.hbm, 47, rfl⟩
abbrev main_cst_1 : Ref sig .tc := ⟨.hbm, 48, rfl⟩
abbrev main_v9 : Ref sig .tc := ⟨.hbm, 49, rfl⟩
abbrev main_cst_2 : Ref sig .tc := ⟨.hbm, 50, rfl⟩
abbrev main_v10 : Ref sig .tc := ⟨.hbm, 51, rfl⟩
abbrev main_cst_3 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩

abbrev nD : Nat := 1
abbrev τ : Topo := Topo.v7x

variable {F : FTy → Type} [FloatOps F]

class Facts₀ : Prop where
  reducesTo_S262144x1024_S262144_d1 : S262144x1024.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1024_0_1 : S262144x1.BroadcastsInDim S262144x1024 (![0, 1] : Fin 2 → Fin S262144x1024.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  bcast_S_S1024 : S_.BroadcastsInDim S1024 (![] : Fin 0 → Fin S1024.rank)
  reducesTo_S1024_S_d0 : S1024.ReducesTo [0] S_
  reducesTo_S262144_S_d0 : S262144.ReducesTo [0] S_
  gather_S262144x1024_S262144x1x1_S262144x1_n_1_0_0_1_2_11_wf : GatherDims.WF S262144x1024 S262144x1x1 S262144x1 [] [1] [0] [1] [0] 2 ![1, 1]
  scatter_S1024_S262144x1_S262144_n_0_0_1_wf : ScatterDims.WF S1024 S262144x1 S262144 [] [0] [0] 1

variable [Facts₀]

def gather_S262144x1024_S262144x1x1_S262144x1_n_1_0_0_1_2_11 : GatherDims S262144x1024 S262144x1x1 S262144x1 where
  offsetDims := []
  collapsedSliceDims := [1]
  operandBatchingDims := [0]
  startIndicesBatchingDims := [0]
  startIndexMap := [1]
  indexVectorDim := 2
  sliceSizes := ![1, 1]
  wf := gather_S262144x1024_S262144x1x1_S262144x1_n_1_0_0_1_2_11_wf
def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf

class Facts : Prop extends Facts₀ where

variable [Facts]
-- ==== Proof.RefPlainOps.lean ====
/- The reference's operation list over plain references: the list of proof/Proof/RefRun.lean, entry by entry, with each
   typed-reference builder written as the plain builder over the reference it names. A table; that the two lists are
   one list is proved where it is used. -/
import proofs.«429949_j61933428410031_3_alg».proof.Proof.RefRun

noncomputable section

namespace Cert.ReferenceIdeal.PlainOps

open Cert.ReferenceIdeal Cert.ReferenceIdeal.Gen Idealize.ShloMosaic Idealize.ShloMosaic.TcCoe Idealize.SL.Sem Idealize.ShloMosaic.StableHlo
open Cert.ReferenceIdeal.RunCopy

variable {F : FTy → Type} [FloatOps F]

/-- @main's 54 operations, in order, over plain references. -/
abbrev opsPlain : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S262144x1024_S262144_d1 h_S_) : (⟨S262144x1024, .f32⟩ : BufTy).Contents (Elt F) → (⟨S_, .f32⟩ : BufTy).Contents (Elt F) → (⟨S262144, .f32⟩ : BufTy).Contents (Elt F)),
    nullary main_call0_cst_0 ((constant S_ .f32 0xFF800000#32) : (⟨S_, .f32⟩ : BufTy).Contents (Elt F)),
    unary main_call0_cst_0 main_call0_v1 ((broadcastInDim S262144 ![] bcast_S_S262144) : (⟨S_, .f32⟩ : BufTy).Contents (Elt F) → (⟨S262144, .f32⟩ : BufTy).Contents (Elt F)),
    binary main_call0_v1 main_call0_v0 main_call0_v2 (maximumf : (⟨S262144, .f32⟩ : BufTy).Contents (Elt F) → (⟨S262144, .f32⟩ : BufTy).Contents (Elt F) → (⟨S262144, .f32⟩ : BufTy).Contents (Elt F)),
    unary main_call0_v2 main_call0_v3 ((broadcastInDim S262144x1 ![0] bcast_S262144_S262144x1_0) : (⟨S262144, .f32⟩ : BufTy).Contents (Elt F) → (⟨S262144x1, .f32⟩ : BufTy).Contents (Elt F)),
    unary main_call0_v3 main_call0_v4 ((broadcastInDim S262144x1024 ![0, 1] bcast_S262144x1_S262144x1024_0_1) : (⟨S262144x1, .f32⟩ : BufTy).Contents (Elt F) → (⟨S262144x1024, .f32⟩ : BufTy).Contents (Elt F)),
    binary main_arg0 main_call0_v4 main_call0_v5 (subf : (⟨S262144x1024, .f32⟩ : BufTy).Contents (Elt F) → (⟨S262144x1024, .f32⟩ : BufTy).Contents (Elt F) → (⟨S262144x1024, .f32⟩ : BufTy).Contents (Elt F)),
    unary main_call0_v5 main_call0_v6 (Host.exp : (⟨S262144x1024, .f32⟩ : BufTy).Contents (Elt F) → (⟨S262144x1024, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S262144x1024_S262144_d1 h_S_) : (⟨S262144x1024, .f32⟩ : BufTy).Contents (Elt F) → (⟨S_, .f32⟩ : BufTy).Contents (Elt F) → (⟨S262144, .f32⟩ : BufTy).Contents (Elt F)),
    unary main_call0_v7 main_call0_v8 ((broadcastInDim S262144x1 ![0] bcast_S262144_S262144x1_0) : (⟨S262144, .f32⟩ : BufTy).Contents (Elt F) → (⟨S262144x1, .f32⟩ : BufTy).Contents (Elt F)),
    unary main_call0_v8 main_call0_v9 (Host.log : (⟨S262144x1, .f32⟩ : BufTy).Contents (Elt F) → (⟨S262144x1, .f32⟩ : BufTy).Contents (Elt F)),
    unary main_call0_v9 main_call0_v10 ((broadcastInDim S262144x1024 ![0, 1] bcast_S262144x1_S262144x1024_0_1) : (⟨S262144x1, .f32⟩ : BufTy).Contents (Elt F) → (⟨S262144x1024, .f32⟩ : BufTy).Contents (Elt F)),
    binary main_call0_v5 main_call0_v10 main_v0 (subf : (⟨S262144x1024, .f32⟩ : BufTy).Contents (Elt F) → (⟨S262144x1024, .f32⟩ : BufTy).Contents (Elt F) → (⟨S262144x1024, .f32⟩ : BufTy).Contents (Elt F)),
    unary main_arg1 main_v1 (broadcastInDim S262144x1 ![0] bcast_S262144_S262144x1_0 : (⟨S262144, .i32⟩ : BufTy).Contents (Elt F) → (⟨S262144x1, .i32⟩ : BufTy).Contents (Elt F)),
    nullary main_call1_c ((constantI S_ 32 0#32) : (⟨S_, .i32⟩ : BufTy).Contents (Elt F)),
    unary main_call1_c main_call1_v0 ((broadcastInDim S262144x1 ![] bcast_S_S262144x1) : (⟨S_, .i32⟩ : BufTy).Contents (Elt F) → (⟨S262144x1, .i32⟩ : BufTy).Contents (Elt F)),
    binary main_v1 main_call1_v0 main_call1_v1 ((cmpi .slt) : (⟨S262144x1, .i32⟩ : BufTy).Contents (Elt F) → (⟨S262144x1, .i32⟩ : BufTy).Contents (Elt F) → (⟨S262144x1, .i1⟩ : BufTy).Contents (Elt F)),
    nullary main_call1_c_0 ((constantI S_ 32 1024#32) : (⟨S_, .i32⟩ : BufTy).Contents (Elt F)),
    unary main_call1_c_0 main_call1_v2 ((broadcastInDim S262144x1 ![] bcast_S_S262144x1) : (⟨S_, .i32⟩ : BufTy).Contents (Elt F) → (⟨S262144x1, .i32⟩ : BufTy).Contents (Elt F)),
    binary main_v1 main_call1_v2 main_call1_v3 (addi : (⟨S262144x1, .i32⟩ : BufTy).Contents (Elt F) → (⟨S262144x1, .i32⟩ : BufTy).Contents (Elt F) → (⟨S262144x1, .i32⟩ : BufTy).Contents (Elt F)),
    ternary main_call1_v1 main_call1_v3 main_v1 main_call1_v4 (select : (⟨S262144x1, .i1⟩ : BufTy).Contents (Elt F) → (⟨S262144x1, .i32⟩ : BufTy).Contents (Elt F) → (⟨S262144x1, .i32⟩ : BufTy).Contents (Elt F) → (⟨S262144x1, .i32⟩ : BufTy).Contents (Elt F)),
    reshape main_call1_v4 main_call1_v5 rfl shapeCasts_S262144x1_S262144x1x1,
    nullary main_call1_c_1 ((constantI S1 32 1023#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S262144x1x1 ![] bcast_S_S262144x1x1) : (⟨S_, .i32⟩ : BufTy).Contents (Elt F) → (⟨S262144x1x1, .i32⟩ : BufTy).Contents (Elt F)),
    binary main_call1_v5 main_call1_v6 main_call1_v7 ((cmpi .sge) : (⟨S262144x1x1, .i32⟩ : BufTy).Contents (Elt F) → (⟨S262144x1x1, .i32⟩ : BufTy).Contents (Elt F) → (⟨S262144x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S262144x1x1 ![0, 1, 2] bcast_S1x1x1_S262144x1x1_0_1_2) : (⟨S1x1x1, .i32⟩ : BufTy).Contents (Elt F) → (⟨S262144x1x1, .i32⟩ : BufTy).Contents (Elt F)),
    binary main_call1_v5 main_call1_v9 main_call1_v10 ((cmpi .sle) : (⟨S262144x1x1, .i32⟩ : BufTy).Contents (Elt F) → (⟨S262144x1x1, .i32⟩ : BufTy).Contents (Elt F) → (⟨S262144x1x1, .i1⟩ : BufTy).Contents (Elt F)),
    binary main_call1_v7 main_call1_v10 main_call1_v11 (andi : (⟨S262144x1x1, .i1⟩ : BufTy).Contents (Elt F) → (⟨S262144x1x1, .i1⟩ : BufTy).Contents (Elt F) → (⟨S262144x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S262144x1x1_S262144x1_d2 h_S_) : (⟨S262144x1x1, .i1⟩ : BufTy).Contents (Elt F) → (⟨S_, .i1⟩ : BufTy).Contents (Elt F) → (⟨S262144x1, .i1⟩ : BufTy).Contents (Elt F)),
    binary main_v0 main_call1_v5 main_call1_v13 ((fun x i => Host.gather gather_S262144x1024_S262144x1x1_S262144x1_n_1_0_0_1_2_11 x i) : (⟨S262144x1024, .f32⟩ : BufTy).Contents (Elt F) → (⟨S262144x1x1, .i32⟩ : BufTy).Contents (Elt F) → (⟨S262144x1, .f32⟩ : BufTy).Contents (Elt F)),
    nullary main_call1_cst ((constant S_ .f32 0x7FC00000#32) : (⟨S_, .f32⟩ : BufTy).Contents (Elt F)),
    unary main_call1_cst main_call1_v14 ((broadcastInDim S262144x1 ![] bcast_S_S262144x1) : (⟨S_, .f32⟩ : BufTy).Contents (Elt F) → (⟨S262144x1, .f32⟩ : BufTy).Contents (Elt F)),
    ternary main_call1_v12 main_call1_v13 main_call1_v14 main_v2 (select : (⟨S262144x1, .i1⟩ : BufTy).Contents (Elt F) → (⟨S262144x1, .f32⟩ : BufTy).Contents (Elt F) → (⟨S262144x1, .f32⟩ : BufTy).Contents (Elt F) → (⟨S262144x1, .f32⟩ : BufTy).Contents (Elt F)),
    reshape main_v2 main_v3 rfl shapeCasts_S262144x1_S262144,
    unary main_v3 main_v4 (Host.negf : (⟨S262144, .f32⟩ : BufTy).Contents (Elt F) → (⟨S262144, .f32⟩ : BufTy).Contents (Elt F)),
    nullary main_cst (constant S_ .f32 0x00000000#32),
    unary main_cst main_v5 (broadcastInDim S1024 ![] bcast_S_S1024 : (⟨S_, .f32⟩ : BufTy).Contents (Elt F) → (⟨S1024, .f32⟩ : BufTy).Contents (Elt F)),
    unary main_arg1 main_v6 (broadcastInDim S262144x1 ![0] bcast_S262144_S262144x1_0 : (⟨S262144, .i32⟩ : BufTy).Contents (Elt F) → (⟨S262144x1, .i32⟩ : BufTy).Contents (Elt F)),
    ternary main_v5 main_v6 main_v4 main_v7 ((fun x i u => Host.scatterAdd scatter_S1024_S262144x1_S262144_n_0_0_1 x i u) : (⟨S1024, .f32⟩ : BufTy).Contents (Elt F) → (⟨S262144x1, .i32⟩ : BufTy).Contents (Elt F) → (⟨S262144, .f32⟩ : BufTy).Contents (Elt F) → (⟨S1024, .f32⟩ : BufTy).Contents (Elt F)),
    nullary main_cst_0 (constant S_ .f32 0x00000000#32),
    binary main_v7 main_cst_0 main_v8 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_1 (constant S_ .f32 0x48800000#32),
    binary main_v8 main_cst_1 main_v9 (Host.divf : (⟨S_, .f32⟩ : BufTy).Contents (Elt F) → (⟨S_, .f32⟩ : BufTy).Contents (Elt F) → (⟨S_, .f32⟩ : BufTy).Contents (Elt F)),
    nullary main_cst_2 (constant S_ .f32 0x00000000#32),
    binary main_v4 main_cst_2 main_v10 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_3 (constant S_ .f32 0x48800000#32),
    binary main_v10 main_cst_3 main_v11 (Host.divf : (⟨S_, .f32⟩ : BufTy).Contents (Elt F) → (⟨S_, .f32⟩ : BufTy).Contents (Elt F) → (⟨S_, .f32⟩ : BufTy).Contents (Elt F)),
    binary main_v9 main_v11 main_v12 (subf : (⟨S_, .f32⟩ : BufTy).Contents (Elt F) → (⟨S_, .f32⟩ : BufTy).Contents (Elt F) → (⟨S_, .f32⟩ : BufTy).Contents (Elt F)),
    unary main_v12 main_v13 (Host.absf : (⟨S_, .f32⟩ : BufTy).Contents (Elt F) → (⟨S_, .f32⟩ : BufTy).Contents (Elt F)) ]

end Cert.ReferenceIdeal.PlainOps

end
-- ==== Proof.RefFold.lean ====
/-
  The reference's run, read. After the run the result buffer holds the fold of the 54 operations' results over the
  launch contents. The operations of the two called functions are printed over typed references, whose contents are
  transported along a type equation that holds by computation, so each is the plain operation over the reference
  itself and the whole list is the plain list. Over the plain list the fold composes the operations' functions in
  program order, which is the last stage of the stage-by-stage reading.
-/
import proofs.«429949_j61933428410031_3_alg».proof.Proof.RefPlainOps
import proofs.«429949_j61933428410031_3_alg».proof.Proof.RefRead

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.ReferenceIdeal.RunCopy Cert.ReferenceIdeal.ReadCopy Cert.ReferenceIdeal.PlainOps

variable {F : FTy → Type} [FloatOps F]

/-- A binary operation over typed references that carry their buffers' own types is the plain operation: the
    transport is along a reflexive equation. Stated with the function a variable, so that nothing of it is unfolded. -/
theorem tbinary_of (a b y : Ref sig .tc) (ha2 : a.space ≠ .host) (ha3 : a.isScoped = false)
    (hb2 : b.space ≠ .host) (hb3 : b.isScoped = false) (hy2 : y.space ≠ .host) (hy3 : y.isScoped = false)
    (f : a.ty.Contents (Elt F) → b.ty.Contents (Elt F) → y.ty.Contents (Elt F)) :
    (TRef.binary (τ := τ) (TRef.of a rfl ha2 ha3) (TRef.of b rfl hb2 hb3) (TRef.of y rfl hy2 hy3) f : HloOp τ sig (Elt F))
      = StableHlo.binary a b y f (TRef.of a rfl ha2 ha3).dev (TRef.of b rfl hb2 hb3).dev (TRef.of y rfl hy2 hy3).dev := rfl

set_option maxRecDepth 8192 in
set_option maxHeartbeats 4000000 in
/-- The printed operation list is the list over plain references, entry by entry: each entry's transport is along an
    equation that holds by computation; the two reductions with a body of their own (the row maximum, the conjunction
    over the unit axis) by the lemma above, their function left folded. -/
theorem ops_eq_plain : (ops : List (HloOp τ sig (Elt F))) = opsPlain := by
  delta ops opsPlain
  refine congrArg₂ List.cons rfl ?_
  refine congrArg₂ List.cons (tbinary_of main_arg0 main_call0_cst main_call0_v0 (by decide) rfl (by decide) rfl (by decide) rfl
    (fun x v => Host.reduce FloatOps.maximumf x v reducesTo_S262144x1024_S262144_d1 h_S_)) ?_
  iterate 31 (refine congrArg₂ List.cons rfl ?_)
  refine congrArg₂ List.cons (tbinary_of main_call1_v11 main_call1_c_3 main_call1_v12 (by decide) rfl (by decide) rfl (by decide) rfl
    (fun x v => Host.reduce IntOp.andi x v reducesTo_S262144x1x1_S262144x1_d2 h_S_)) ?_
  iterate 20 (refine congrArg₂ List.cons rfl ?_)
  rfl

set_option maxRecDepth 8192 in
set_option maxHeartbeats 2000000 in
/-- The fold of the operations at the result buffer is the last stage of the arguments' contents. -/
theorem fold_eq (V : Valuation τ sig (Elt F)) :
    after (ops (F := F)) V (Proc.devRef .tc main_v13)
      = val_main_v13 (F := F) (V (Proc.devRef .tc main_arg0)) (V (Proc.devRef .tc main_arg1)) := by
  rw [ops_eq_plain]
  after_results_simp
  rfl

end Cert.ReferenceIdeal.Fold

end
-- ==== Proof.RefIndex.lean ====
import proofs.«429949_j61933428410031_3_alg».proof.Proof.RefRead
import Idealize.ShloMosaic.Lib.ValueIdx
import Idealize.ShloMosaic.Lib.ReduceAll
noncomputable section
namespace Cert.ReferenceIdeal.RefIndex
open Cert.ReferenceIdeal Cert.ReferenceIdeal.Gen Cert.ReferenceIdeal.ReadCopy Idealize.ShloMosaic Idealize.ShloMosaic.ValueIdx
variable (x1 : (⟨S262144, .i32⟩ : BufTy).Contents (Elt Ideal))

/-! ## Words and indices -/

/-- A word below 1024 read as a signed integer is its unsigned value. -/
theorem toInt_of_lt {w : BitVec 32} (h : w.toNat < 1024) : w.toInt = (w.toNat : Int) :=
  BitVec.toInt_eq_toNat_of_lt (by omega)

/-- The reshape [262144,1] → [262144,1,1] reads (n, 0, 0) at (n, 0): the row-major position is ((n·1+0)·1+0)/1 = n. -/
theorem cast_ix3 (n : Fin 262144) : idx_main_call1_v5 (ix3 n (0 : Fin 1) (0 : Fin 1)) = ix2 n (0 : Fin 1) := by
  funext a
  match a with
  | ⟨0, _⟩ => exact Fin.ext (by show ((n.val * 1 + 0) * 1 + 0) / 1 = n.val; omega)
  | ⟨1, _⟩ => rfl

/-- The broadcast [262144] → [262144,1] reads (n, 0) at n. -/
theorem bcast_ix2 (n : Fin 262144) : idx_main_v1 (ix2 n (0 : Fin 1)) = ix1 n := by
  funext a
  match a with
  | ⟨0, _⟩ => rfl

/-- The class words as a column: entry (n, 0) is class word n. -/
theorem v1_at (n : Fin 262144) : val_main_v1 (F := Ideal) x1 (ix2 n (0 : Fin 1)) = x1 (ix1 n) := by
  rw [val_main_v1_apply, bcast_ix2]

/-! ## The start index -/

/-- A class word below 1024 is nonnegative as a signed integer, so the wrap of negative indices leaves it as it is: the start index of row n is class word n. -/
theorem idx_apply (n : Fin 262144) (ht : (x1 (ix1 n)).toNat < 1024) :
    val_main_call1_v5 (F := Ideal) x1 (ix3 n (0 : Fin 1) (0 : Fin 1)) = x1 (ix1 n) := by
  rw [val_main_call1_v5_apply, cast_ix3, val_main_call1_v4_apply, val_main_call1_v1_apply, v1_at,
    val_main_call1_v0_apply, val_main_call1_c_apply]
  have h0 : IntOp.cmpi .slt (x1 (ix1 n)) 0#32 = 0#1 := by
    apply eq_zero_of_ne_one
    rw [IntOp.cmpi_slt, toInt_of_lt ht, show (0#32 : BitVec 32).toInt = 0 from by decide]
    omega
  rw [h0, select_zero]

/-! ## The in-bounds flag -/

/-- Axis 2 of [262144,1,1] reduces away to [262144,1]. -/
theorem reduces_d2 : S262144x1x1.Reduces [2] S262144x1 := by decide

/-- The reduced index (n, 0) with coordinate k put back on axis 2 is (n, 0, 0): axis 2 has size 1. -/
theorem lift_ix3 (n : Fin 262144) (k : Fin (S262144x1x1.size 2)) :
    reduces_d2.lift (ix2 n (0 : Fin 1)) k = ix3 n (0 : Fin 1) (0 : Fin 1) := by
  have hk : k.val < 1 := k.isLt
  funext c; apply Fin.ext
  fin_cases c
  · rfl
  · rfl
  · show k.val = 0; omega

/-- An "and" from 1 over bits that are all 1 is 1. -/
theorem fold_andi_one {ι : Type} [DecidableEq ι] (s : Finset ι) (f : ι → BitVec 1) (hf : ∀ k, f k = 1#1) :
    s.fold IntOp.andi 1#1 f = 1#1 := by
  induction s using Finset.induction_on with
  | empty => rfl
  | insert a s ha ih => rw [Finset.fold_insert ha, ih, hf]; rfl

/-- For a class word below 1024 the start index passes the range test 0 ≤ · ≤ 1023, so the in-bounds flag of row n is 1. -/
theorem flag_apply (n : Fin 262144) (ht : (x1 (ix1 n)).toNat < 1024) :
    val_main_call1_v12 (F := Ideal) x1 (ix2 n (0 : Fin 1)) = 1#1 := by
  unfold val_main_call1_v12
  rw [Host.reduce_eq_fold_single IntOp.andi _ _ reducesTo_S262144x1x1_S262144x1_d2 reduces_d2 h_S_ (ix2 n (0 : Fin 1)),
    val_main_call1_c_3_apply]
  apply fold_andi_one
  intro k
  show val_main_call1_v11 (F := Ideal) x1 (reduces_d2.lift (ix2 n (0 : Fin 1)) k) = 1#1
  rw [lift_ix3, val_main_call1_v11_apply, val_main_call1_v7_apply, val_main_call1_v10_apply, idx_apply x1 n ht,
    val_main_call1_v6_apply, val_main_call1_c_2_apply, val_main_call1_v9_apply, val_main_call1_v8_apply,
    val_main_call1_c_1_apply, IntOp.andi_eq_one, IntOp.cmpi_sge, IntOp.cmpi_sle, toInt_of_lt ht,
    show (0#32 : BitVec 32).toInt = 0 from by decide, show (1023#32 : BitVec 32).toInt = 1023 from by decide]
  omega

end Cert.ReferenceIdeal.RefIndex
end
-- ==== Proof.GatherRow.lean ====
import proofs.«429949_j61933428410031_3_alg».proof.ReferenceIdeal
import proofs.«429949_j61933428410031_3_alg».proof.Proof.Gen.ReferenceIdeal
import Idealize.ShloMosaic.Lib.ValueIdx
noncomputable section
namespace Cert.ReferenceIdeal.GatherRow
open Cert.ReferenceIdeal Idealize.ShloMosaic Idealize.ShloMosaic.ValueIdx

/-!
# The batched gather of the reference, read at a row

The operand is a [262144 × 1024] table, the start indices a [262144 × 1 × 1] array, the result a
[262144 × 1] column. Axis 0 of the operand is a batching axis, paired with axis 0 of the start
indices; axis 1 of the operand is collapsed and is the one axis the start index names; the index
vector lies on axis 2 of the start indices; there are no offset axes, and both slice sizes are 1.

The operand index of a result index is, on every operand axis, the sum of three terms: the clamped
start, the batching coordinate, and the offset coordinate. For the result index (n, 0):

* on axis 0 (batching) the start is 0 because the axis is not start-indexed, the offset is 0
  because the axis is not kept, and the batching coordinate is the result's coordinate on the batch
  axis that faces start-indices axis 0, which is n;
* on axis 1 (collapsed, start-indexed) the batching and offset coordinates are 0, and the start is
  the start index read signed at (n, 0, 0), clamped into [0, 1024 − 1].
-/

/-- The start-indices index at which the result index (n, 0) reads component 0 of its start index:
    the result's two batch coordinates n and 0 on axes 0 and 1, and the component number 0 on the
    index vector's axis 2. -/
theorem siIdx_row (n : Fin 262144)
    (hm : (⟨1, by decide⟩ : Fin S262144x1024.rank) ∈ (gather_S262144x1024_S262144x1x1_S262144x1_n_1_0_0_1_2_11).startIndexMap) :
    (gather_S262144x1024_S262144x1x1_S262144x1_n_1_0_0_1_2_11).siIdx (ix2 n (0 : Fin 1))
        ⟨List.idxOf (⟨1, by decide⟩ : Fin S262144x1024.rank) (gather_S262144x1024_S262144x1x1_S262144x1_n_1_0_0_1_2_11).startIndexMap,
          List.idxOf_lt_length_iff.2 hm⟩
      = ix3 n (0 : Fin 1) (0 : Fin 1) := by
  funext b
  refine Fin.ext ?_
  match b with
  | ⟨0, _⟩ => rfl  -- a batch axis: the result's coordinate 0, which is n
  | ⟨1, _⟩ => rfl  -- a batch axis: the result's coordinate 1, which is 0
  | ⟨2, _⟩ => rfl  -- the index vector's axis: the position of operand axis 1 in the start index map [1], which is 0

/-- The batched gather of the reference, read at row n: the operand's row n at the column the row's start index names, read signed and clamped into [0, 1023]. -/
theorem gather_row_apply {α : Type} (x : S262144x1024.Idx → α) (idx : IVec S262144x1x1 32) (n : Fin 262144) :
    Host.gather gather_S262144x1024_S262144x1x1_S262144x1_n_1_0_0_1_2_11 x idx (ix2 n (0 : Fin 1))
      = x (ix2 n (⟨min (idx (ix3 n (0 : Fin 1) (0 : Fin 1))).toInt.toNat 1023, by omega⟩ : Fin 1024)) := by
  unfold Host.gather
  -- the two sides read the operand; it is enough that the two operand indices agree on each axis
  congr 1
  funext a
  refine Fin.ext ?_
  match a with
  | ⟨0, _⟩ =>
    -- axis 0 is the batching axis
    have hb : (⟨0, by decide⟩ : Fin S262144x1024.rank) ∈ (gather_S262144x1024_S262144x1x1_S262144x1_n_1_0_0_1_2_11).operandBatchingDims :=
      List.mem_singleton.mpr rfl
    show (gather_S262144x1024_S262144x1x1_S262144x1_n_1_0_0_1_2_11).start (ix2 n (0 : Fin 1)) idx ⟨0, _⟩
        + (gather_S262144x1024_S262144x1x1_S262144x1_n_1_0_0_1_2_11).batchCoord (ix2 n (0 : Fin 1)) ⟨0, _⟩
        + (gather_S262144x1024_S262144x1x1_S262144x1_n_1_0_0_1_2_11).offCoord (ix2 n (0 : Fin 1)) ⟨0, _⟩ = n.val
    -- a batching axis is not start-indexed (start 0) and is not kept (offset 0)
    rw [GatherDims.start_batching _ _ _ _ hb,
      GatherDims.offCoord_eq_zero _ _ _ (fun h => ((GatherDims.mem_sKept _ _).mp h).2 hb)]
    simp only [Nat.zero_add, Nat.add_zero]
    -- the batching coordinate: operand axis 0 is first among the batching axes, so it is paired with
    -- start-indices axis 0, which is first among the start indices' axes off the index vector, so it
    -- reads the result's first batch axis, axis 0, where (n, 0) has n
    unfold GatherDims.batchCoord
    rw [dif_pos hb]
    rfl
  | ⟨1, _⟩ =>
    -- axis 1 is collapsed and is the start-indexed axis; it is not a batching axis
    have hb : (⟨1, by decide⟩ : Fin S262144x1024.rank) ∉ (gather_S262144x1024_S262144x1x1_S262144x1_n_1_0_0_1_2_11).operandBatchingDims := by
      show (⟨1, _⟩ : Fin 2) ∉ [(⟨0, _⟩ : Fin 2)]
      decide
    have hc : (⟨1, by decide⟩ : Fin S262144x1024.rank) ∈ (gather_S262144x1024_S262144x1x1_S262144x1_n_1_0_0_1_2_11).collapsedSliceDims :=
      List.mem_singleton.mpr rfl
    have hm : (⟨1, by decide⟩ : Fin S262144x1024.rank) ∈ (gather_S262144x1024_S262144x1x1_S262144x1_n_1_0_0_1_2_11).startIndexMap :=
      List.mem_singleton.mpr rfl
    show (gather_S262144x1024_S262144x1x1_S262144x1_n_1_0_0_1_2_11).start (ix2 n (0 : Fin 1)) idx ⟨1, _⟩
        + (gather_S262144x1024_S262144x1x1_S262144x1_n_1_0_0_1_2_11).batchCoord (ix2 n (0 : Fin 1)) ⟨1, _⟩
        + (gather_S262144x1024_S262144x1x1_S262144x1_n_1_0_0_1_2_11).offCoord (ix2 n (0 : Fin 1)) ⟨1, _⟩ = _
    -- not batching (batching coordinate 0), collapsed hence not kept (offset 0)
    rw [GatherDims.batchCoord_eq_zero _ _ _ hb,
      GatherDims.offCoord_eq_zero _ _ _ (fun h => ((GatherDims.mem_sKept _ _).mp h).1 hc)]
    simp only [Nat.add_zero]
    -- the start: the start index at (n, 0, 0), read signed, clamped to the axis size less the slice size
    unfold GatherDims.start
    rw [dif_pos hm, siIdx_row n hm]
    -- the clamp's upper end is 1024 − 1 = 1023
    rfl

end Cert.ReferenceIdeal.GatherRow
end
-- ==== Proof.Spec.lean ====
/-
  One row of the cross-entropy. For a row r of 1024 extended reals and a class word t, the negative log-likelihood
  of class t under softmax(r), in the two spellings the two programs use:

    rowNll r t      = (M + log Σₖ exp (rₖ − M)) − Σₖ [k = t] rₖ            with M = maxₖ rₖ, the maximum taken from −∞;
    rowNllRef r q   = −((r_q − M') − log (0 + Σₖ exp (rₖ − M')))            with M' = max (−∞) M.

  On a row of real numbers the maximum M is a real number, every exp (rₖ − M) is a positive real, their sum is a
  positive real whose logarithm is a real, and the one-hot sum Σₖ [k = t] rₖ is the entry r_t when t < 1024. The two
  spellings are then the same real number: −((a − M) − L) = (M + L) − a. Finiteness is what the law needs: with an
  infinite entry the differences above are not the real ones.

  perSample is the first spelling taken row by row over a [262144, 1024] array of logits and 262144 class words.
-/
import Idealize.ShloMosaic.PureOps.Ideal
import Idealize.ShloMosaic.PureOps.Ideal.Laws
import Idealize.ShloMosaic.Lib.ValueIdx

noncomputable section

open scoped BigOperators

namespace Cert.Nll

open Idealize.ShloMosaic Idealize.ShloMosaic.ValueIdx

/-- The pattern 0xFF800000 denotes −∞. -/
theorem ofBits_negInf : Ideal.ofBits .f32 0xFF800000#32 = (⊥ : EReal) := by
  simp [Ideal.ofBits, Ideal.ieee]

/-- A row's maximum, taken from −∞ over its 1024 entries. -/
def rowMax (r : Fin 1024 → EReal) : EReal :=
  (Finset.univ : Finset (Fin 1024)).fold max (Ideal.ofBits .f32 0xFF800000#32) r

/-- The negative log-likelihood of class t, the log-sum-exp first and the one-hot sum of the row subtracted. -/
def rowNll (r : Fin 1024 → EReal) (t : BitVec 32) : EReal :=
  (rowMax r + Ideal.log (∑ k : Fin 1024, Ideal.exp (r k - rowMax r)))
    - ∑ k : Fin 1024, (if BitVec.ofNat 32 k.val = t then r k else 0)

/-- The negated log-softmax of the row at column q. -/
def rowNllRef (r : Fin 1024 → EReal) (q : Fin 1024) : EReal :=
  -((r q - max (Ideal.ofBits .f32 0xFF800000#32) (rowMax r))
      - Ideal.log (Ideal.ofBits .f32 0x00000000#32
          + ∑ k : Fin 1024, Ideal.exp (r k - max (Ideal.ofBits .f32 0xFF800000#32) (rowMax r))))

/-- The maximum from −∞ over a nonempty finite family of real numbers is a real number. -/
theorem fold_max_coe {ι : Type} [DecidableEq ι] (y : ι → ℝ) (s : Finset ι) (hs : s.Nonempty) :
    ∃ M : ℝ, s.fold max (⊥ : EReal) (fun k => (y k : EReal)) = (M : EReal) := by
  induction s using Finset.induction_on with
  | empty => exact absurd hs Finset.not_nonempty_empty
  | insert a s ha ih =>
    rw [Finset.fold_insert ha]
    by_cases hs' : s.Nonempty
    · obtain ⟨M, hM⟩ := ih hs'
      exact ⟨max (y a) M, by rw [hM]; exact (EReal.coe_strictMono.monotone.map_max).symm⟩
    · rw [Finset.not_nonempty_iff_eq_empty.mp hs', Finset.fold_empty]
      exact ⟨y a, max_eq_left bot_le⟩

/-- A finite sum of real numbers, summed in the extended reals. -/
theorem coe_sum {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The one-hot sum of a row at a class word below 1024 is the row's entry there. -/
theorem oneHot_sum (r : Fin 1024 → EReal) (t : BitVec 32) (ht : t.toNat < 1024) :
    (∑ k : Fin 1024, (if BitVec.ofNat 32 k.val = t then r k else 0)) = r ⟨t.toNat, ht⟩ := by
  rw [Finset.sum_eq_single (⟨t.toNat, ht⟩ : Fin 1024)]
  · rw [if_pos]
    exact BitVec.eq_of_toNat_eq (by rw [BitVec.toNat_ofNat]; exact Nat.mod_eq_of_lt (by omega))
  · intro k _ hk
    rw [if_neg]
    intro h
    apply hk
    apply Fin.ext
    have e := congrArg BitVec.toNat h
    rw [BitVec.toNat_ofNat, Nat.mod_eq_of_lt (by have := k.isLt; omega)] at e
    exact e
  · intro h; exact absurd (Finset.mem_univ _) h

/-- On a row of real numbers and a class below 1024 the two spellings are one number. -/
theorem rowNllRef_eq_rowNll (r : Fin 1024 → EReal) (hr : ∀ k, ∃ y : ℝ, r k = (y : EReal))
    (t : BitVec 32) (ht : t.toNat < 1024) : rowNllRef r ⟨t.toNat, ht⟩ = rowNll r t := by
  choose y hy using hr
  have hry : r = fun k => (y k : EReal) := funext hy
  obtain ⟨M, hM⟩ : ∃ M : ℝ, rowMax r = (M : EReal) := by
    unfold rowMax
    rw [ofBits_negInf, hry]
    exact fold_max_coe y Finset.univ ⟨0, Finset.mem_univ _⟩
  unfold rowNllRef rowNll
  rw [oneHot_sum r t ht, hM, ofBits_negInf, Ideal.ofBits_zero_f32, max_eq_right bot_le, zero_add]
  have hS : (∑ k : Fin 1024, Ideal.exp (r k - (M : EReal)))
      = ((∑ k : Fin 1024, Real.exp (y k - M) : ℝ) : EReal) := by
    rw [← coe_sum]
    refine Finset.sum_congr rfl fun k _ => ?_
    rw [hy k, ← EReal.coe_sub, Ideal.exp_coe]
  have hpos : 0 < ∑ k : Fin 1024, Real.exp (y k - M) :=
    Finset.sum_pos (fun k _ => Real.exp_pos _) ⟨0, Finset.mem_univ _⟩
  rw [hS, Ideal.log_coe, if_neg (not_le.mpr hpos), hy ⟨t.toNat, ht⟩]
  rw [← EReal.coe_sub, ← EReal.coe_sub, ← EReal.coe_neg, ← EReal.coe_add, ← EReal.coe_sub]
  congr 1
  ring

/-- The per-sample losses of a [262144, 1024] array of logits and 262144 class words: row i's negative
    log-likelihood at class word i. -/
def perSample (x : (⟨2, ![262144, 1024]⟩ : Shape).Idx → EReal) (t : (⟨1, ![262144]⟩ : Shape).Idx → BitVec 32) :
    (⟨1, ![262144]⟩ : Shape).Idx → EReal :=
  fun i => rowNll (fun k => x (ix2 (i 0) k)) (t (ix1 (i 0)))

end Cert.Nll

end
-- ==== Proof.RefValue.lean ====
/-
  The reference's per-sample losses, read. Row n of the log-softmax is, at column q,
      (x(n,q) − M') − log (0 + Σₖ exp (x(n,k) − M')),        M' = max (−∞) (maxₖ x(n,k)),
  the row maximum a reduction from −∞ joined once more with −∞, the sum a reduction from 0. The gather reads row n
  at the column its start index names, clamped into [0, 1023]; for a class word t below 1024 the start index is t
  itself and the range test passes, so the selected value is the log-softmax of row n at column t, and its negation
  is the row's negative log-likelihood in the second spelling. On finite logits that is the first spelling.
-/
import proofs.«429949_j61933428410031_3_alg».proof.Proof.RefRead
import proofs.«429949_j61933428410031_3_alg».proof.Proof.RefIndex
import proofs.«429949_j61933428410031_3_alg».proof.Proof.GatherRow
import proofs.«429949_j61933428410031_3_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadCopy Idealize.ShloMosaic Idealize.ShloMosaic.ValueIdx Cert.Nll

variable (x0 : (⟨S262144x1024, .f32⟩ : BufTy).Contents (Elt Ideal)) (x1 : (⟨S262144, .i32⟩ : BufTy).Contents (Elt Ideal))

/-- Row n's reduced index with column k put back is (n, k). -/
theorem lift_row (h : S262144x1024.Reduces [1] S262144) (n : Fin 262144) (k : Fin 1024) :
    h.lift (ix1 n) k = ix2 n k := by
  funext c; apply Fin.ext
  fin_cases c <;> rfl

/-- The row maximum the log-softmax subtracts. -/
def refMax (n : Fin 262144) : EReal :=
  max (Ideal.ofBits .f32 0xFF800000#32) (rowMax (fun k => x0 (ix2 n k)))

/-- The joined row maximum at row n. -/
theorem max_apply (n : Fin 262144) : val_main_call0_v2 (F := Ideal) x0 (ix1 n) = refMax x0 n := by
  rw [val_main_call0_v2_apply, val_main_call0_v1_apply, val_main_call0_cst_0_apply]
  unfold val_main_call0_v0
  have hR : S262144x1024.Reduces [1] S262144 := by decide
  have e := Host.reduce_eq_fold_single (s := S262144x1024) (α := Ideal .f32) (FloatOps.maximumf (F := Ideal) (φ := .f32)) x0
    (val_main_call0_cst (F := Ideal)) reducesTo_S262144x1024_S262144_d1 hR h_S_ (ix1 n)
  refine (congrArg (fun z => FloatOps.maximumf (F := Ideal) (φ := .f32) (FloatOps.ofBits .f32 0xFF800000#32) z) e).trans ?_
  unfold refMax rowMax
  show max (Ideal.ofBits .f32 0xFF800000#32) (Finset.fold max (Ideal.ofBits .f32 0xFF800000#32)
      (fun k : Fin 1024 => x0 (hR.lift (ix1 n) k)) Finset.univ) = _
  simp only [lift_row]

/-- The shifted logit at (n, q). -/
theorem shifted_apply (n : Fin 262144) (q : Fin 1024) :
    val_main_call0_v5 (F := Ideal) x0 (ix2 n q) = x0 (ix2 n q) - refMax x0 n := by
  rw [val_main_call0_v5_apply, val_main_call0_v4_apply, val_main_call0_v3_apply]
  have e : idx_main_call0_v3 (idx_main_call0_v4 (ix2 n q)) = ix1 n := by
    funext a; apply Fin.ext
    match a with
    | ⟨0, _⟩ => rfl
  rw [e, max_apply]
  rfl

/-- The logarithm of the row's sum of exponentials, broadcast along the row, at (n, q). -/
theorem lse_apply (n : Fin 262144) (q : Fin 1024) :
    val_main_call0_v10 (F := Ideal) x0 (ix2 n q)
      = Ideal.log (Ideal.ofBits .f32 0x00000000#32 + ∑ k : Fin 1024, Ideal.exp (x0 (ix2 n k) - refMax x0 n)) := by
  rw [val_main_call0_v10_apply, val_main_call0_v9_apply, val_main_call0_v8_apply, val_main_call0_v7_apply]
  have e : idx_main_call0_v8 (idx_main_call0_v10 (ix2 n q)) = ix1 n := by
    funext a; apply Fin.ext
    match a with
    | ⟨0, _⟩ => rfl
  rw [e]
  show Ideal.log (Ideal.ofBits .f32 0x00000000#32 + ∑ k : Fin 1024, val_main_call0_v6 (F := Ideal) x0 (idx_main_call0_v7 (ix1 n) k)) = _
  refine congrArg (fun s => Ideal.log (Ideal.ofBits .f32 0x00000000#32 + s)) (Finset.sum_congr rfl fun k _ => ?_)
  have ek : idx_main_call0_v7 (ix1 n) k = ix2 n k := by
    funext a; apply Fin.ext
    match a with
    | ⟨0, _⟩ => rfl
    | ⟨1, _⟩ => rfl
  rw [ek, val_main_call0_v6_apply, shifted_apply]
  rfl

/-- The log-softmax at (n, q). -/
theorem logp_apply (n : Fin 262144) (q : Fin 1024) :
    val_main_v0 (F := Ideal) x0 (ix2 n q)
      = (x0 (ix2 n q) - refMax x0 n)
        - Ideal.log (Ideal.ofBits .f32 0x00000000#32 + ∑ k : Fin 1024, Ideal.exp (x0 (ix2 n k) - refMax x0 n)) := by
  rw [val_main_v0_apply, shifted_apply, lse_apply]
  rfl

/-- The negated log-softmax of row n at column q is the row's negative log-likelihood in the second spelling. -/
theorem neg_logp (n : Fin 262144) (q : Fin 1024) :
    -(val_main_v0 (F := Ideal) x0 (ix2 n q)) = rowNllRef (fun k => x0 (ix2 n k)) q := by
  rw [logp_apply]
  rfl

/-- For class words below 1024 the reference's per-sample loss of row n is the negated log-softmax of the row at its
    class word. -/
theorem loss_row (n : Fin 262144) (ht : (x1 (ix1 n)).toNat < 1024) :
    val_main_v4 (F := Ideal) x0 x1 (ix1 n) = rowNllRef (fun k => x0 (ix2 n k)) ⟨(x1 (ix1 n)).toNat, ht⟩ := by
  rw [val_main_v4_apply, val_main_v3_apply]
  have e : idx_main_v3 (ix1 n) = ix2 n (0 : Fin 1) := by
    funext a; apply Fin.ext
    match a with
    | ⟨0, _⟩ => show n.val / 1 = n.val; omega
    | ⟨1, _⟩ => rfl
  rw [e, val_main_v2_apply, RefIndex.flag_apply x1 n ht, select_one]
  unfold val_main_call1_v13
  rw [GatherRow.gather_row_apply]
  have hval : min (val_main_call1_v5 (F := Ideal) x1 (ix3 n (0 : Fin 1) (0 : Fin 1))).toInt.toNat 1023
      = (x1 (ix1 n)).toNat := by
    rw [RefIndex.idx_apply x1 n ht, BitVec.toInt_eq_toNat_of_lt (by omega)]
    have hc : ((x1 (ix1 n)).toNat : Int).toNat = (x1 (ix1 n)).toNat := Int.toNat_natCast _
    rw [hc]
    omega
  rw [show (⟨min (val_main_call1_v5 (F := Ideal) x1 (ix3 n (0 : Fin 1) (0 : Fin 1))).toInt.toNat 1023, by omega⟩ : Fin 1024)
      = ⟨(x1 (ix1 n)).toNat, ht⟩ from Fin.ext hval]
  exact neg_logp x0 n _

/-- On finite logits and class words below 1024 the reference's per-sample losses are the per-sample losses. -/
theorem loss_eq (hx : ∀ i : S262144x1024.Idx, ∃ y : ℝ, x0 i = (y : EReal)) (ht : ∀ i : S262144.Idx, (x1 i).toNat < 1024) :
    val_main_v4 (F := Ideal) x0 x1 = perSample x0 x1 := by
  funext i
  exact (congrArg (val_main_v4 (F := Ideal) x0 x1) (eq_ix1 i)).trans
    ((loss_row x0 x1 (i 0) (ht (ix1 (i 0)))).trans
      (rowNllRef_eq_rowNll (fun k => x0 (ix2 (i 0) k)) (fun k => hx (ix2 (i 0) k)) (x1 (ix1 (i 0))) (ht (ix1 (i 0)))))

end Cert.ReferenceIdeal.RefValue

end
-- ==== Proof.KernelRow.lean ====
/-
  What the kernel body stores, read at a row. The body's one store holds, at row p of the 1024-row block,
      (m + log Σₖ exp (x(p,k) − m)) − Σₖ [k = t(p)] x(p,k),        m = maxₖ x(p,k) taken from −∞,
  where x is the [1024, 1024] block of logits and t the [1024, 1] block of class words: the row's maximum is a lane
  reduction kept as a column, the column is broadcast along the lanes and subtracted, the exponentials are summed
  along the lanes, and the entry at the class is picked by comparing a lane iota with the class word broadcast along
  the lanes and summing the selected entries. That is the row's negative log-likelihood in the first spelling.
-/
import proofs.«429949_j61933428410031_3_alg».proof.Proof.Gen.KernelIdeal.Skeleton
import proofs.«429949_j61933428410031_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Nll

/-- The row maxima as a column. -/
def colMax (x0 : Vec Ideal S1024x1024 .f32) : FVec Ideal S1024x1 .f32 :=
  shapeCast S1024x1 (multiReduction .maximumf [1] S1024 x0 0xFF800000#32 reduces_S1024x1024_S1024 (.inl rfl) rfl)
    shapeCasts_S1024_S1024x1

/-- The rows' sums of exponentials of the entries less the row maximum, as a column. -/
def colSumExp (x0 : Vec Ideal S1024x1024 .f32) : FVec Ideal S1024x1 .f32 :=
  shapeCast S1024x1
    (multiReduction .add [1] S1024 (exp (subf x0 (broadcastTo S1024x1024 (colMax x0) broadcasts_S1024x1_S1024x1024)))
      0x00000000#32 reduces_S1024x1024_S1024 (.inl rfl) rfl)
    shapeCasts_S1024_S1024x1

/-- The rows' one-hot sums at the class words, as a column. -/
def colPick (x0 : Vec Ideal S1024x1024 .f32) (x1 : Vec Ideal S1024x1 .i32) : FVec Ideal S1024x1 .f32 :=
  shapeCast S1024x1
    (multiReduction .add [1] S1024
      (select
        (cmpi .eq (broadcastTo S1024x1024 (iota .tc S1x1024 32 [1] iota_S1x1024_d1_w32) broadcasts_S1x1024_S1024x1024)
          (broadcastTo S1024x1024 (shapeCast S1024x1 x1 shapeCasts_S1024x1_S1024x1) broadcasts_S1024x1_S1024x1024))
        x0 (broadcast S1024x1024 (Scalar.ofBits (F := Ideal) .f32 0x00000000#32)))
      0x00000000#32 reduces_S1024x1024_S1024 (.inl rfl) rfl)
    shapeCasts_S1024_S1024x1

/-- The stored vector is the three columns combined and flattened. -/
theorem pay_eq (x0 : Vec Ideal S1024x1024 .f32) (x1 : Vec Ideal S1024x1 .i32) :
    k0_pay1 (F := Ideal) x0 x1
      = shapeCast S1024 (subf (addf (colMax x0) (log (colSumExp x0))) (colPick x0 x1)) shapeCasts_S1024x1_S1024 := rfl

/-- Row p's reduced index with lane k put back is (p, k). -/
theorem lift_row (h : S1024x1024.Reduces [1] S1024) (p k : Fin 1024) :
    h.lift (ix1 p) k = ix2 p k := by
  funext c; apply Fin.ext
  fin_cases c <;> rfl

/-- A column built from a [1024] vector reads the vector at its row. -/
theorem col_apply (y : FVec Ideal S1024 .f32) (p : Fin 1024) :
    shapeCast S1024x1 y shapeCasts_S1024_S1024x1 (ix2 p (0 : Fin 1)) = y (ix1 p) :=
  shapeCast_apply y shapeCasts_S1024_S1024x1 (ix2 p (0 : Fin 1)) (ix1 p)
    (by rw [Shape.rowMajor_val_two, Shape.rowMajor_val_one]; simp)

/-- A column broadcast along the lanes reads the column at its row. -/
theorem bcastCol_apply {α : Type} (v : S1024x1.Idx → α) (p k : Fin 1024) :
    broadcastTo S1024x1024 v broadcasts_S1024x1_S1024x1024 (ix2 p k) = v (ix2 p (0 : Fin 1)) :=
  broadcastTo_apply v broadcasts_S1024x1_S1024x1024 (ix2 p k) (ix2 p (0 : Fin 1))
    (fun a => by fin_cases a <;> simp)

/-- A one-row vector broadcast down the rows reads the row at its lane. -/
theorem bcastRow_apply {α : Type} (v : S1x1024.Idx → α) (p k : Fin 1024) :
    broadcastTo S1024x1024 v broadcasts_S1x1024_S1024x1024 (ix2 p k) = v (ix2 (0 : Fin 1) k) :=
  broadcastTo_apply v broadcasts_S1x1024_S1024x1024 (ix2 p k) (ix2 (0 : Fin 1) k)
    (fun a => by fin_cases a <;> simp)

/-- The elementwise exponential, logarithm and word comparison read at an index. -/
theorem vexp_apply {s : Shape} (a : FVec Ideal s .f32) (i : s.Idx) : exp a i = Ideal.exp (a i) := rfl
theorem vlog_apply {s : Shape} (a : FVec Ideal s .f32) (i : s.Idx) : log a i = Ideal.log (a i) := rfl
theorem vcmpi_apply {s : Shape} {w : Nat} (q : CmpIPredicate) (a b : IVec s w) (i : s.Idx) :
    cmpi q a b i = IntOp.cmpi q (a i) (b i) := rfl

/-- The column of maxima at row p is the row's maximum. -/
theorem colMax_apply (x0 : Vec Ideal S1024x1024 .f32) (p : Fin 1024) :
    colMax x0 (ix2 p (0 : Fin 1)) = rowMax (fun k => x0 (ix2 p k)) := by
  unfold colMax
  rw [col_apply]
  have hφ : FKind.Formats .f32 := .inl rfl
  have hacc : (0xFF800000#32 : BitVec FTy.f32.bits) = FKind.maximumf.neutral .f32 hφ := rfl
  refine (Ideal.multiReduction_maximumf_single (φ := .f32) x0 0xFF800000#32 reduces_S1024x1024_S1024 hφ hacc (ix1 p)).trans ?_
  unfold rowMax
  show Finset.fold max (Ideal.ofBits .f32 0xFF800000#32)
      (fun k : Fin 1024 => x0 (reduces_S1024x1024_S1024.lift (ix1 p) k)) Finset.univ = _
  simp only [lift_row]

/-- The column of sums at row p is the sum of the exponentials of the row's entries less its maximum. -/
theorem colSumExp_apply (x0 : Vec Ideal S1024x1024 .f32) (p : Fin 1024) :
    colSumExp x0 (ix2 p (0 : Fin 1))
      = ∑ k : Fin 1024, Ideal.exp (x0 (ix2 p k) - rowMax (fun k => x0 (ix2 p k))) := by
  unfold colSumExp
  rw [col_apply]
  refine (Ideal.multiReduction_add_single _ 0x00000000#32 reduces_S1024x1024_S1024 (.inl rfl) rfl (ix1 p)).trans ?_
  show ∑ k : Fin 1024, _ = _
  refine Finset.sum_congr rfl fun k _ => ?_
  rw [lift_row _ p k, vexp_apply, subf_apply, bcastCol_apply, colMax_apply]

/-- The column of one-hot sums at row p is the one-hot sum of the row at the row's class word. -/
theorem colPick_apply (x0 : Vec Ideal S1024x1024 .f32) (x1 : Vec Ideal S1024x1 .i32) (p : Fin 1024) :
    colPick x0 x1 (ix2 p (0 : Fin 1))
      = ∑ k : Fin 1024, (if BitVec.ofNat 32 k.val = x1 (ix2 p (0 : Fin 1)) then x0 (ix2 p k) else 0) := by
  unfold colPick
  rw [col_apply]
  refine (Ideal.multiReduction_add_single _ 0x00000000#32 reduces_S1024x1024_S1024 (.inl rfl) rfl (ix1 p)).trans ?_
  show ∑ k : Fin 1024, _ = _
  refine Finset.sum_congr rfl fun k _ => ?_
  rw [lift_row _ p k, select_apply, vcmpi_apply, bcastRow_apply, bcastCol_apply, shapeCast_self, iota_single_apply,
    broadcast_apply]
  show (if IntOp.cmpi .eq (BitVec.ofNat 32 k.val) (x1 (ix2 p (0 : Fin 1))) = 1#1 then x0 (ix2 p k)
      else Ideal.ofBits .f32 0x00000000#32) = _
  rw [Ideal.ofBits_zero_f32]
  exact if_congr IntOp.cmpi_eq rfl rfl

/-- The stored vector at row p is the row's negative log-likelihood at the row's class word. -/
theorem pay_apply (x0 : Vec Ideal S1024x1024 .f32) (x1 : Vec Ideal S1024x1 .i32) (p : Fin 1024) :
    k0_pay1 (F := Ideal) x0 x1 (ix1 p) = rowNll (fun k => x0 (ix2 p k)) (x1 (ix2 p (0 : Fin 1))) := by
  rw [pay_eq]
  refine (shapeCast_apply _ shapeCasts_S1024x1_S1024 (ix1 p) (ix2 p (0 : Fin 1))
    (by rw [Shape.rowMajor_val_two, Shape.rowMajor_val_one]; simp)).trans ?_
  rw [subf_apply, addf_apply, vlog_apply, colMax_apply, colSumExp_apply, colPick_apply]
  unfold rowNll
  rfl

/-- The same at any index of the stored vector. -/
theorem pay_at (x0 : Vec Ideal S1024x1024 .f32) (x1 : Vec Ideal S1024x1 .i32) (j : S1024.Idx) :
    k0_pay1 (F := Ideal) x0 x1 j = rowNll (fun k => x0 (ix2 (j 0) k)) (x1 (ix2 (j 0) (0 : Fin 1))) :=
  (congrArg (k0_pay1 (F := Ideal) x0 x1) (eq_ix1 j)).trans (pay_apply x0 x1 (j 0))

end Cert.KernelIdeal.Row

end
-- ==== Proof.KernelValue.lean ====
/-
  The kernel's run, read. The region writes the per-sample losses: grid point t stages rows 1024·t … 1024·t + 1023
  of the logits and of the class-word column, the body leaves in the output's staging buffer the rows' negative
  log-likelihoods, and the block is written back to rows 1024·t … of the result. The 256 blocks tile the result, so
  after the region it holds, at every row i, the negative log-likelihood of row i of the logits at class word i.
  The class-word column the region reads is the reshape of the class words made before it. The host lines after the
  region then form |Σ_c (segment sums over classes) / N − (Σ_i loss_i) / N| from that array and the class words.
-/
import proofs.«429949_j61933428410031_3_alg».proof.Proof.Gen.KernelIdeal.Frame
import proofs.«429949_j61933428410031_3_alg».proof.Proof.KernelRow
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Nll Cert.KernelIdeal.Row

variable (m : (ℓ : Loc nD τ sig) → Buf (Elt Ideal) ℓ) (ρ : Dev nD → PrngReg)

/-! ## The tail after the region, as one function of the per-sample losses and the class words -/

/-- |(Σ over classes of the class's segment sum) / 262144 − (Σ of the losses) / 262144|. -/
def tail (P : S262144.Idx → EReal) (t : S262144.Idx → BitVec 32) : S_.Idx → EReal :=
  Host.absf (F := Ideal) (subf
    (Host.divf (F := Ideal)
      (Host.reduceAdd (F := Ideal)
        (Host.scatterAdd (F := Ideal) scatter_S1024_S262144x1_S262144_n_0_0_1
          (broadcastInDim S1024 ![] bcast_S_S1024 (constant (F := Ideal) S_ .f32 0x00000000#32))
          (broadcastInDim S262144x1 ![0] bcast_S262144_S262144x1_0 t) P)
        (constant (F := Ideal) S_ .f32 0x00000000#32) reducesTo_S1024_S_d0 h_S_)
      (constant (F := Ideal) S_ .f32 0x48800000#32))
    (Host.divf (F := Ideal)
      (Host.reduceAdd (F := Ideal) P (constant (F := Ideal) S_ .f32 0x00000000#32) reducesTo_S262144_S_d0 h_S_)
      (constant (F := Ideal) S_ .f32 0x48800000#32)))

/-! ## The blocks -/

theorem hz1 : (![0] : Fin 1 → Nat) = fun _ => 0 := funext fun a => by fin_cases a; rfl
theorem hz2 : (![0, 0] : Fin 2 → Nat) = fun _ => 0 := funext fun a => by fin_cases a <;> rfl

/-- The index maps over the grid: point t's blocks are block row t of each array. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

theorem point_lt (t : Fin cfg0.N) : t.val < 256 := by
  have h := t.isLt
  have hN : cfg0.N = 256 := N_0
  omega

/-- The logits' and the class words' blocks at a point, at their literal types. -/
abbrev xblk (c : Dev nD) (t : Fin cfg0.N) : Vec Ideal S1024x1024 .f32 := iblk m c 0 t
abbrev tblk (c : Dev nD) (t : Fin cfg0.N) : Vec Ideal S1024x1 .i32 := iblk m c 1 t

/-- Row p of point t's block of the logits is row 1024·t + p of the array. -/
theorem xblk_apply (c : Dev nD) (t : Fin cfg0.N) (p k : Fin 1024) (r : Fin 262144) (hr : r.val = 1024 * t.val + p.val) :
    xblk m c t (ix2 p k) = (V m c main_arg0 : S262144x1024.Idx → EReal) (ix2 r k) := by
  obtain ⟨e0, e1, -, -, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- Row p of point t's block of the class-word column is row 1024·t + p of the column. -/
theorem tblk_apply (c : Dev nD) (t : Fin cfg0.N) (p : Fin 1024) (r : Fin 262144) (hr : r.val = 1024 * t.val + p.val) :
    tblk m c t (ix2 p (0 : Fin 1)) = (V m c main_v0 : S262144x1.Idx → BitVec 32) (ix2 r (0 : Fin 1)) := by
  obtain ⟨-, -, e2, e3, -⟩ := idx_facts t
  show V m c main_v0 (((cfg0.win 1).blk t).view.emb (ix2 p (0 : Fin 1))) = V m c main_v0 (ix2 r (0 : Fin 1))
  refine congrArg (V m c main_v0) (funext fun a => Fin.ext ?_)
  match a with
  | ⟨0, _⟩ => show win0_1.index t (0 : Fin 2) * 1024 + 1 * p.val = r.val; rw [e2, hr]; omega
  | ⟨1, _⟩ => show win0_1.index t (1 : Fin 2) * 1 + 1 * 0 = 0; rw [e3]

/-! ## The result array after the region -/

/-- The per-sample losses of the arrays the region reads: the logits and the class-word column. -/
def lossOf (x : S262144x1024.Idx → EReal) (tc : S262144x1.Idx → BitVec 32) : S262144.Idx → EReal :=
  fun i => rowNll (fun k => x (ix2 (i 0) k)) (tc (ix2 (i 0) (0 : Fin 1)))

/-- What point t writes back is block t of the per-sample losses. -/
theorem flushed_eq (c : Dev nD) (t : Fin cfg0.N) :
    (dats m 0 c).flushed 2 t
      = ((cfg0.win 2).blk t).view.read (Elt Ideal) (lossOf (V m c main_arg0) (V m c main_v0)) := by
  show (cfg0.win 2).cut (grid0.coords t) ((dats m 0 c).after 2 t) = _
  rw [after0_2]
  unfold out0_2
  rw [View.canon_unit_zero hz1]
  simp only [View.ld_unit_zero (S := S1024x1024) hz2, View.ld_unit_zero (S := S1024x1) hz2]
  obtain ⟨-, -, -, -, e4⟩ := idx_facts t
  funext j
  refine (pay_at (xblk m c t) (tblk m c t) j).trans ?_
  have hr : ((((cfg0.win 2).blk t).view.emb j) 0).val = 1024 * t.val + (j 0).val := by
    show win0_2.index t (0 : Fin 1) * 1024 + 1 * (j 0).val = _
    rw [e4]; omega
  show _ = rowNll (fun k => (V m c main_arg0 : S262144x1024.Idx → EReal) (ix2 ((((cfg0.win 2).blk t).view.emb j) 0) k))
    ((V m c main_v0 : S262144x1.Idx → BitVec 32) (ix2 ((((cfg0.win 2).blk t).view.emb j) 0) (0 : Fin 1)))
  exact congrArg₂ rowNll (funext fun k => xblk_apply m c t (j 0) k _ hr) (tblk_apply m c t (j 0) _ hr)

/-- An index of the result is in point t's block exactly when its row is among the block's rows. -/
theorem mem_blk (t : Fin cfg0.N) (i : S262144.Idx) :
    i ∈ ((cfg0.win 2).blk t).view.set
      ↔ ∀ a : Fin 1, win0_2.index t a * S1024.size a ≤ (i a).val ∧ (i a).val < win0_2.index t a * S1024.size a + S1024.size a := by
  show i ∈ ((View.whole main_v1).slice (win0_2.rect t)).set ↔ _
  rw [View.set_slice_whole, Rect.mem_set_unit]
  exact Iff.rfl

/-- Every row of the result is in the block of the point its row number divided by 1024 names. -/
theorem cover (c : Dev nD) (i : S262144.Idx) :
    ∃ t : Fin cfg0.N, (cfg0.win 2).flush t = true ∧ i ∈ ((cfg0.win 2).blk t).view.set := by
  have hi : (i 0).val < 262144 := (i 0).isLt
  have hN : cfg0.N = 256 := N_0
  refine ⟨⟨(i 0).val / 1024, by rw [hN]; omega⟩, flush0_2 _, ?_⟩
  rw [mem_blk]
  intro a
  obtain ⟨-, -, -, -, e4⟩ := idx_facts ⟨(i 0).val / 1024, by rw [hN]; omega⟩
  match a with
  | ⟨0, _⟩ =>
    show win0_2.index _ (0 : Fin 1) * 1024 ≤ (i 0).val ∧ (i 0).val < win0_2.index _ (0 : Fin 1) * 1024 + 1024
    rw [e4]
    show (i 0).val / 1024 * 1024 ≤ (i 0).val ∧ (i 0).val < (i 0).val / 1024 * 1024 + 1024
    omega

/-- After the region the result holds the per-sample losses. -/
theorem final (c : Dev nD) : (dats m 0 c).arrAt 2 cfg0.N = lossOf (V m c main_arg0) (V m c main_v0) :=
  (dats m 0 c).arrAt_eq_of_cover 2 _ (fun t _ => flushed_eq m c t) (cover c)

/-! ## The arrays the region reads -/

/-- The class-word column is the reshape of the class words. -/
theorem V_main_v0 (c : Dev nD) :
    (V m c main_v0 : S262144x1.Idx → BitVec 32)
      = shapeCast S262144x1 (m ((c : Thread nD τ).loc main_arg1) : S262144.Idx → BitVec 32) shapeCasts_S262144_S262144x1 := by
  show StableHlo.after hostOps0 (fun b => m (c, b)) (Proc.devRef .tc main_v0) = _
  after_results
  rfl

/-- The column at row r is class word r. -/
theorem V_main_v0_apply (c : Dev nD) (r : Fin 262144) :
    (V m c main_v0 : S262144x1.Idx → BitVec 32) (ix2 r (0 : Fin 1))
      = (m ((c : Thread nD τ).loc main_arg1) : S262144.Idx → BitVec 32) (ix1 r) := by
  rw [V_main_v0]
  exact shapeCast_apply _ shapeCasts_S262144_S262144x1 (ix2 r (0 : Fin 1)) (ix1 r)
    (by rw [Shape.rowMajor_val_two, Shape.rowMajor_val_one]; simp)

/-- The per-sample losses of the arguments. -/
theorem loss_args (c : Dev nD) :
    lossOf (V m c main_arg0) (V m c main_v0)
      = perSample (m ((c : Thread nD τ).loc main_arg0)) (m ((c : Thread nD τ).loc main_arg1)) := by
  funext i
  unfold lossOf perSample
  exact congrArg₂ rowNll (funext fun k => congrFun (V_main_arg0 m c) (ix2 (i 0) k)) (V_main_v0_apply m c (i 0))

/-! ## The run -/

/-- The host lines after the region compute the tail of the result array and the class words. -/
theorem tail_eq (c : Dev nD) :
    Pipeline.afterTail₀ cfgs (dats m) 0 (V0 m) [hostOps1] c main_v10
      = tail ((dats m 0 c).arrAt 2 cfg0.N) (m ((c : Thread nD τ).loc main_arg1)) := by
  unfold Pipeline.afterTail₀
  show StableHlo.after hostOps1 _ (Proc.devRef .tc main_v10) = _
  after_results
  have e1 : Pipeline.withArrays spec0 c (V0 m c) (fun w => (dats m 0 c).arrAt w cfg0.N) (Proc.devRef .tc main_v1)
      = (dats m 0 c).arrAt 2 cfg0.N := Pipeline.withArrays_arr spec0 launch0.win.arr_inj c _ _ 2
  have e2 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1 (by decide)).trans (V_main_arg1 m c)
  show tail (Pipeline.withArrays spec0 c (V0 m c) (fun w => (dats m 0 c).arrAt w cfg0.N) (Proc.devRef .tc main_v1))
      (Pipeline.withArrays spec0 c (V0 m c) (fun w => (dats m 0 c).arrAt w cfg0.N) (Proc.devRef .tc main_arg1)) = _
  rw [e1, e2]

/-- Every weakly fair execution of the kernel's program terminates with the result at the tail of the per-sample
    losses of the arguments, the arguments unchanged. -/
theorem run : θ_run defs (onTc (τ := τ) (main (F := Ideal))) ⟨m, fun _ => 0, ρ⟩ fun r => ∀ c : Dev nD,
      r.2.mem ((c.tc : Thread nD τ).loc main_v10)
        = tail (perSample (m ((c : Thread nD τ).loc main_arg0)) (m ((c : Thread nD τ).loc main_arg1)))
            (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans
        ((tail_eq m c).trans (by rw [final, loss_args])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Hand

end
-- ==== Proof.PreRead.lean ====
/-
  The precondition read back. It is the conjunction of two all-reductions: every entry of the logits is smaller in
  absolute value than +∞, and every class word t satisfies 0 ≤ t < 1024 as a signed 32-bit integer. From the first,
  every entry is a real number (an extended real x with max x (−x) < ⊤ is neither ⊤ nor ⊥); from the second, the word
  read unsigned is below 1024 (a word that is nonnegative as a signed integer reads the same signed and unsigned).
-/
import proofs.«429949_j61933428410031_3_alg».proof.Pre_finite_inputs
import Idealize.ShloMosaic.Lib.ReduceAll
import Idealize.ShloMosaic.Lib.ValueIdx
import Idealize.ShloMosaic.PureOps.Ideal.Laws

noncomputable section

namespace Cert.PreRead

open Idealize.ShloMosaic Cert.Pre_finite_inputs

variable [Cert.Pre_finite_inputs.Facts]
open Cert.Pre_finite_inputs.Facts

instance : Subsingleton S_.Idx := ⟨fun _ _ => funext fun d => d.elim0⟩

/-- An extended real whose absolute value is below +∞ is a real number. -/
theorem real_of_abs_lt_top (x : EReal) (h : max x (-x) < (⊤ : EReal)) : ∃ y : ℝ, x = (y : EReal) := by
  induction x using EReal.rec with
  | bot => exact absurd h (by simp)
  | coe y => exact ⟨y, rfl⟩
  | top => exact absurd h (by simp)

/-- A 32-bit word between 0 and 1023 as a signed integer is below 1024 read unsigned. -/
theorem toNat_lt_of_signed_range (w : BitVec 32) (h0 : (0#32 : BitVec 32).toInt ≤ w.toInt)
    (h1 : w.toInt < (1024#32 : BitVec 32).toInt) : w.toNat < 1024 := by
  have e0 : (0#32 : BitVec 32).toInt = 0 := by decide
  have e1 : (1024#32 : BitVec 32).toInt = 1024 := by decide
  rw [e0] at h0
  rw [e1] at h1
  rw [BitVec.toInt_eq_toNat_cond] at h0 h1
  split_ifs at h0 h1 <;> omega

/-- Under the precondition every logit is a real number and every class word is below 1024. -/
theorem of_pre (x : FVec Ideal S262144x1024 .f32) (t : IVec S262144 32)
    (h : fn (F := Ideal) x t = fun _ => 1#1) :
    (∀ i : S262144x1024.Idx, ∃ y : ℝ, x i = (y : EReal)) ∧ (∀ i : S262144.Idx, (t i).toNat < 1024) := by
  have h0 := congrFun h ValueIdx.ix0
  dsimp only [fn] at h0
  obtain ⟨hA, hB⟩ := IntOp.andi_eq_one.1 h0
  refine ⟨fun i => ?_, fun i => ?_⟩
  · have e := Host.reduce_andi_all _ _ _ _ _ hA i
    apply real_of_abs_lt_top
    have e' : Ideal.cmp .olt (max (x i) (-(x i))) (Ideal.ofBits .f32 0x7F800000#32) = 1#1 := e
    have hinf : Ideal.ofBits .f32 0x7F800000#32 = (⊤ : EReal) := by simp [Ideal.ofBits, Ideal.ieee]
    rw [hinf] at e'
    have hb : ∀ b : Bool, BitVec.ofBool b = 1#1 → b = true := by decide
    exact of_decide_eq_true (hb _ e')
  · have e := Host.reduce_andi_all _ _ _ _ _ hB i
    obtain ⟨e0, e1⟩ := IntOp.andi_eq_one.1 e
    exact toNat_lt_of_signed_range (t i) (IntOp.cmpi_sge.1 e0) (IntOp.cmpi_slt.1 e1)

end Cert.PreRead

end
-- ==== Proof.lean ====
/-
  Cross-entropy consistency check: a Pallas kernel computes the per-sample negative log-likelihoods of 262144 rows
  of 1024 logits, and the program then forms |Σ_c (segment sum of the losses over class c) / N − (Σ_i loss_i) / N|;
  the jnp reference computes the same scalar from log_softmax and take_along_axis.

  Precondition: every logit is finite and every class word t satisfies 0 ≤ t < 1024 (the range of the axis it
  indexes).

  The kernel's loss of row i is (M + log Σₖ exp (x(i,k) − M)) − Σₖ [k = tᵢ] x(i,k) with M the row maximum; the
  reference's is −((x(i,tᵢ) − M) − log Σₖ exp (x(i,k) − M)). On finite rows M, the sum of exponentials and its
  logarithm are real numbers and the one-hot sum is x(i,tᵢ), so the two are the same real number
  (−((a − M) − L) = (M + L) − a). Both programs then apply the same host lines to the losses and the class words,
  so the results are equal.

  The three frames are the generated frame runs of the two kernel programs and the reference's run with the result
  dropped; no rewrite was made when the kernel was idealized, so there is nothing to preserve.
-/
import proofs.«429949_j61933428410031_3_alg».proof.Defs
import proofs.«429949_j61933428410031_3_alg».proof.Proof.Gen.Kernel
import proofs.«429949_j61933428410031_3_alg».proof.Proof.Gen.Kernel.Skeleton
import proofs.«429949_j61933428410031_3_alg».proof.Proof.Gen.Kernel.Launch
import proofs.«429949_j61933428410031_3_alg».proof.Proof.Gen.Kernel.Points
import proofs.«429949_j61933428410031_3_alg».proof.Proof.Gen.Kernel.Frame
import proofs.«429949_j61933428410031_3_alg».proof.Proof.Gen.KernelIdeal
import proofs.«429949_j61933428410031_3_alg».proof.Proof.Gen.KernelIdeal.Skeleton
import proofs.«429949_j61933428410031_3_alg».proof.Proof.Gen.KernelIdeal.Launch
import proofs.«429949_j61933428410031_3_alg».proof.Proof.Gen.KernelIdeal.Points
import proofs.«429949_j61933428410031_3_alg».proof.Proof.Gen.KernelIdeal.Frame
import proofs.«429949_j61933428410031_3_alg».proof.Proof.Gen.ReferenceIdeal
import proofs.«429949_j61933428410031_3_alg».proof.Proof.Gen.Pre_finite_inputs
import proofs.«429949_j61933428410031_3_alg».proof.Proof.RefRun
import proofs.«429949_j61933428410031_3_alg».proof.Proof.RefRead
import proofs.«429949_j61933428410031_3_alg».proof.Proof.RefFold
import proofs.«429949_j61933428410031_3_alg».proof.Proof.RefValue
import proofs.«429949_j61933428410031_3_alg».proof.Proof.KernelValue
import proofs.«429949_j61933428410031_3_alg».proof.Proof.PreRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunCopy.run (F := Ideal) m ρ)

/-- The reference's last stage is the tail the kernel's program applies, of the reference's per-sample losses and the
    class words: the two programs end with the same host lines. -/
theorem ref_tail (x0 : (⟨Cert.ReferenceIdeal.S262144x1024, .f32⟩ : BufTy).Contents (Elt Ideal))
    (x1 : (⟨Cert.ReferenceIdeal.S262144, .i32⟩ : BufTy).Contents (Elt Ideal)) :
    Cert.ReferenceIdeal.ReadCopy.val_main_v13 (F := Ideal) x0 x1
      = Cert.KernelIdeal.Hand.tail (Cert.ReferenceIdeal.ReadCopy.val_main_v4 (F := Ideal) x0 x1) x1 := rfl

theorem algebraic : Cert.algebraic_KernelIdeal_ReferenceIdeal := by
  intro m ρ m' ρ' hpre hagree
  refine ⟨fun c => Cert.KernelIdeal.Hand.tail
      (Cert.Nll.perSample (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.RunCopy.run (F := Ideal) m' ρ')
  obtain ⟨hx, ht⟩ := Cert.PreRead.of_pre _ _ (hpre c)
  refine (Cert.ReferenceIdeal.Fold.fold_eq _).trans ?_
  show Cert.ReferenceIdeal.ReadCopy.val_main_v13 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2, ref_tail, Cert.ReferenceIdeal.RefValue.loss_eq _ _ hx ht]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
